-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S4096x256 .f32) (main_arg1 : FVec F S4096x256 .f32) (main_arg2 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4096x256 : Shape := ⟨2, ![4096, 256]⟩
abbrev S256 : Shape := ⟨1, ![256]⟩
abbrev S_ : Shape := ⟨0, ![]⟩
abbrev S1x256 : Shape := ⟨2, ![1, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 25
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S1x4096, .f32⟩
  | .hbm, ⟨22, _⟩ => ⟨S4096x256, .bf16⟩
  | .hbm, ⟨23, _⟩ => ⟨S4096x256, .bf16⟩
  | .hbm, ⟨24, _⟩ => ⟨S4096x4096, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v16) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S256 : Shape := ⟨1, ![256]⟩
abbrev S_ : Shape := ⟨0, ![]⟩
abbrev S1x256 : Shape := ⟨2, ![1, 256]⟩
abbrev S4096 : Shape := ⟨1, ![4096]⟩
abbrev S256x4096 : Shape := ⟨2, ![256, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x256, .f32⟩
  | .hbm, ⟨17, _⟩ => ⟨S_, .f32⟩
  | .hbm, ⟨18, _⟩ => ⟨S4096, .f32⟩
  | .hbm, ⟨19, _⟩ => ⟨S256x4096, .f32⟩
  | .hbm, ⟨20, _⟩ => ⟨S4096x4096, .f32⟩
  | .hbm, ⟨21, _⟩ => ⟨S4096x1, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  transposes_S4096x256_S256x4096_1_0 : S4096x256.Transposes [1, 0] S256x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.ArdSpec.lean ====
/-
  The ARD (automatic relevance determination) kernel matrix as ONE function of the three arguments, on the
  extended reals.

  For inputs x, y : [4096, 256] and log band widths l : [256] put s_d = exp(-1/2 · l_d) and scale the columns,
    xw[i, d] = x[i, d] · s_d,      yw[j, d] = y[j, d] · s_d.
  With the squared row norms |a_r|² = 0 + Σ_d a[r, d] · a[r, d], the matrix is
    K[i, j] = exp(-1/2 · max((|xw_i|² + |yw_j|²) - 2 · Σ_d xw[i, d] · yw[j, d], 0)).
  The three constants are kept as the words the programs carry (-1/2, 2 and 0 in binary32): both programs carry the
  same words, so none of them is ever evaluated. Nothing here needs the inputs finite: the two programs compute
  this expression with the same operations in the same order, and differ only in how they tile it.
-/
import Idealize.ShloMosaic.PureOps.Ideal
import Idealize.ShloMosaic.PureOps.Ideal.Laws
import Idealize.ShloMosaic.Lib.ValueIdx

noncomputable section

namespace Cert.Ard

open Idealize.ShloMosaic Idealize.ShloMosaic.ValueIdx

/-- A [4096, 256] array of extended reals. -/
abbrev Pts : Type := (⟨2, ![4096, 256]⟩ : Shape).Idx → EReal
/-- A [256] array of extended reals. -/
abbrev Widths : Type := (⟨1, ![256]⟩ : Shape).Idx → EReal
/-- A [4096, 4096] array of extended reals. -/
abbrev Gram : Type := (⟨2, ![4096, 4096]⟩ : Shape).Idx → EReal

/-- The word of -1/2. -/
abbrev negHalf : EReal := Ideal.ofBits .f32 0xBF000000#32
/-- The word of 2. -/
abbrev two : EReal := Ideal.ofBits .f32 0x40000000#32
/-- The word of 0. -/
abbrev zero : EReal := Ideal.ofBits .f32 0x00000000#32

/-- Column d of the points scaled by exp(-1/2 · l_d). -/
def scaled (x : Pts) (l : Widths) : Pts :=
  fun i => x i * Ideal.exp (negHalf * l (ix1 (n := 256) ⟨(i 1).val, (i 1).isLt⟩))

/-- The squared norm of row r: the sum of the squares of its 256 entries, from the zero word. -/
def sqnorm (a : Pts) (r : Fin 4096) : EReal :=
  zero + ∑ k : Fin 256, a (ix2 r k) * a (ix2 r k)

/-- One entry of the matrix from two scaled point sets a, b and two vectors u, w standing for their squared
    norms: exp(-1/2 · max((u_p + w_q) - 2 · ⟨a_p, b_q⟩, 0)). -/
def entry (a b : Pts) (u w : Fin 4096 → EReal) (p q : Fin 4096) : EReal :=
  Ideal.exp (negHalf * max ((u p + w q) - two * ∑ k : Fin 256, a (ix2 p k) * b (ix2 q k)) zero)

/-- The ARD kernel matrix of x and y at log band widths l. -/
def gram (x y : Pts) (l : Widths) : Gram :=
  fun i => entry (scaled x l) (scaled y l) (sqnorm (scaled x l)) (sqnorm (scaled y l))
    ⟨(i 0).val, (i 0).isLt⟩ ⟨(i 1).val, (i 1).isLt⟩

/-- The matrix at a pair of coordinates. -/
theorem gram_ix2 (x y : Pts) (l : Widths) (p q : Fin 4096) :
    gram x y l (ix2 p q) = entry (scaled x l) (scaled y l) (sqnorm (scaled x l)) (sqnorm (scaled y l)) p q := rfl

/-- The scaled points at a pair of coordinates. -/
theorem scaled_ix2 (x : Pts) (l : Widths) (r : Fin 4096) (k : Fin 256) :
    scaled x l (ix2 r k) = x (ix2 r k) * Ideal.exp (negHalf * l (ix1 k)) := rfl

end Cert.Ard

end
-- ==== Proof.RefGram.lean ====
/-
  The reference computes the ARD kernel matrix `Ard.gram`.

  Stage by stage: the reference scales the columns of x and of y by exp(-1/2 · l_d), sums the squares of each row
  of either (a host sum over the 256 columns, from the zero word), takes the product of the scaled x with the
  transpose of the scaled y (a sum of products over the 256 columns), and finishes pointwise:
  exp(-1/2 · max((|xw_i|² + |yw_j|²) - 2 · ⟨xw_i, yw_j⟩, 0)). Read at an index, that is `Ard.gram` term for term.
-/
import proofs.«175086_j82360292868538_1_alg».proof.Proof.Gen.ReferenceIdeal.Read
import proofs.«175086_j82360292868538_1_alg».proof.Proof.ArdSpec

noncomputable section

namespace Cert.ReferenceIdeal.RefGram

open Cert.ReferenceIdeal Cert.ReferenceIdeal.Gen Cert.ReferenceIdeal.Read Idealize.ShloMosaic Idealize.ShloMosaic.ValueIdx
open Cert.Ard

/-! ## Where each stage reads its operand: the composed index maps, by coordinates -/

/-- The band width an entry of the scaled x-points reads is its column's. -/
theorem col_of_x (i : S4096x256.Idx) : idx_main_v3 (idx_main_v4 i) = ix1 (n := 256) ⟨(i 1).val, (i 1).isLt⟩ :=
  funext fun a => Fin.ext (by match a with | ⟨0, _⟩ => rfl)
/-- The band width an entry of the scaled y-points reads is its column's. -/
theorem col_of_y (i : S4096x256.Idx) : idx_main_v6 (idx_main_v7 i) = ix1 (n := 256) ⟨(i 1).val, (i 1).isLt⟩ :=
  funext fun a => Fin.ext (by match a with | ⟨0, _⟩ => rfl)
/-- Term k of row r's sum of squares of x is entry (r, k). -/
theorem term_of_x (r : Fin 4096) (k : Fin 256) : idx_main_v10 (ix1 r) k = ix2 r k :=
  funext fun a => Fin.ext (by match a with | ⟨0, _⟩ => rfl | ⟨1, _⟩ => rfl)
/-- Term k of row r's sum of squares of y is entry (r, k). -/
theorem term_of_y (r : Fin 4096) (k : Fin 256) : idx_main_v12 (ix1 r) k = ix2 r k :=
  funext fun a => Fin.ext (by match a with | ⟨0, _⟩ => rfl | ⟨1, _⟩ => rfl)
/-- Term k of the product at (p, q) reads x at (p, k) … -/
theorem left_of_cross (p q : Fin 4096) (k : Fin 256) : lidx_main_v14 (ix2 p q) k = ix2 p k :=
  funext fun a => Fin.ext (by match a with | ⟨0, _⟩ => rfl | ⟨1, _⟩ => rfl)
/-- … and, through the transpose, y at (q, k). -/
theorem right_of_cross (p q : Fin 4096) (k : Fin 256) : idx_main_v13 (ridx_main_v14 (ix2 p q) k) = ix2 q k :=
  funext fun a => Fin.ext (by match a with | ⟨0, _⟩ => rfl | ⟨1, _⟩ => rfl)
/-- Entry (p, q) reads the squared norm of row p of x … -/
theorem norm_of_x (p q : Fin 4096) : idx_main_v15 (idx_main_v17 (ix2 p q)) = ix1 p :=
  funext fun a => Fin.ext (by match a with | ⟨0, _⟩ => rfl)
/-- … and of row q of y. -/
theorem norm_of_y (p q : Fin 4096) : idx_main_v16 (idx_main_v18 (ix2 p q)) = ix1 q :=
  funext fun a => Fin.ext (by match a with | ⟨0, _⟩ => rfl)

/-! ## The stages -/

/-- The scaled x-points: the stage the reference multiplies x into. -/
theorem scaled_x (x0 : Pts) (x2 : Widths) : val_main_v5 (F := Ideal) x0 x2 = scaled x0 x2 := by
  funext i
  rw [val_main_v5_apply, val_main_v4_apply, val_main_v3_apply, val_main_v2_apply, val_main_v1_apply, val_main_v0_apply,
    val_main_cst_apply, col_of_x]
  rfl

/-- The scaled y-points. -/
theorem scaled_y (x1 : Pts) (x2 : Widths) : val_main_v8 (F := Ideal) x1 x2 = scaled x1 x2 := by
  funext i
  rw [val_main_v8_apply, val_main_v7_apply, val_main_v6_apply, val_main_v2_apply, val_main_v1_apply, val_main_v0_apply,
    val_main_cst_apply, col_of_y]
  rfl

/-- The squared norm of row r of the scaled x-points. -/
theorem sqnorm_x (x0 : Pts) (x2 : Widths) (r : Fin 4096) :
    val_main_v10 (F := Ideal) x0 x2 (ix1 r) = sqnorm (scaled x0 x2) r := by
  rw [val_main_v10_apply]
  unfold sqnorm
  refine congrArg₂ (· + ·) rfl (Finset.sum_congr rfl fun k _ => ?_)
  rw [val_main_v9_apply, scaled_x, term_of_x]
  rfl

/-- The squared norm of row r of the scaled y-points. -/
theorem sqnorm_y (x1 : Pts) (x2 : Widths) (r : Fin 4096) :
    val_main_v12 (F := Ideal) x1 x2 (ix1 r) = sqnorm (scaled x1 x2) r := by
  rw [val_main_v12_apply]
  unfold sqnorm
  refine congrArg₂ (· + ·) rfl (Finset.sum_congr rfl fun k _ => ?_)
  rw [val_main_v11_apply, scaled_y, term_of_y]
  rfl

/-- The product of the scaled x with the transposed scaled y at (p, q): row p against row q. -/
theorem cross (x0 x1 : Pts) (x2 : Widths) (p q : Fin 4096) :
    val_main_v14 (F := Ideal) x0 x1 x2 (ix2 p q) = ∑ k : Fin 256, scaled x0 x2 (ix2 p k) * scaled x1 x2 (ix2 q k) := by
  rw [val_main_v14_apply]
  refine Finset.sum_congr rfl fun k _ => ?_
  rw [val_main_v13_apply, scaled_x, scaled_y, left_of_cross, right_of_cross]

/-- THE REFERENCE'S RESULT is the ARD kernel matrix of its arguments. -/
theorem result_eq (x0 x1 : Pts) (x2 : Widths) : val_main_v27 (F := Ideal) x0 x1 x2 = gram x0 x1 x2 := by
  funext i
  obtain ⟨p, q, rfl⟩ : ∃ (p q : Fin 4096), i = ix2 p q := ⟨i 0, i 1, eq_ix2 i⟩
  rw [val_main_v27_apply, val_main_v26_apply, val_main_v25_apply, val_main_cst_4_apply, val_main_v24_apply,
    val_main_v22_apply, val_main_v23_apply, val_main_cst_3_apply, val_main_v19_apply, val_main_v21_apply,
    val_main_v20_apply, val_main_cst_2_apply, val_main_v17_apply, val_main_v15_apply, val_main_v18_apply,
    val_main_v16_apply, cross, gram_ix2]
  rw [norm_of_x, norm_of_y, sqnorm_x, sqnorm_y]
  rfl

end Cert.ReferenceIdeal.RefGram

end
-- ==== Proof.BlockEntry.lean ====
/-
  What the body stores at one place of its [1024, 1024] output block, on the extended reals.

  The body loads a [1024, 256] block x0 of scaled x-points, a [1024, 256] block x1 of scaled y-points, a
  [1024, 1] column x2 of squared norms and a [1, 1024] row x3 of squared norms, and stores
    exp(-1/2 · max((x2[p, 0] + x3[0, q]) - 2 · Σ_k x0[p, k] · x1[q, k], 0))
  at (p, q): the matrix product of x0 with the transpose of x1 into a zero accumulator is the plain sum of
  products over the 256 shared columns; the column is broadcast along the lanes and the row along the sublanes.
-/
import proofs.«175086_j82360292868538_1_alg».proof.Proof.Gen.KernelIdeal.Skeleton
import proofs.«175086_j82360292868538_1_alg».proof.Proof.ArdSpec
import Idealize.ShloMosaic.PureOps.Ideal.Laws
import Idealize.ShloMosaic.Lib.ValueIdx
import Idealize.ShloMosaic.Lib.Pipeline.Value

noncomputable section

namespace Cert.KernelIdeal.BlockEntry

open Cert.KernelIdeal Cert.KernelIdeal.Gen Idealize.ShloMosaic Idealize.ShloMosaic.ValueIdx
open Cert.Ard

/-- The dimension numbers of the body's product: [1024, 256] times [256, 1024], one contracted axis. -/
abbrev D : DotDims S1024x256 S256x1024 S1024x1024 := dot_S1024x256_S256x1024_S1024x1024_1_0_0_1_n_n

/-! ## The product's operand indices, axis by axis -/

theorem lhs_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-! ## The three operations that are not pointwise, each read at (p, q) -/

/-- The product with the transposed second block, into a zero accumulator: row p of the first block against row q
    of the second. -/
theorem matmul_transposed (x0 x1 : FVec Ideal S1024x256 .bf16) (p q : Fin 1024) :
    FloatOps.matmul dot_S1024x256_S256x1024_S1024x1024_1_0_0_1_n_n none x0
        (transpose S256x1024 [1, 0] x1 Facts₀.transposes_S1024x256_p1_0_S256x1024) (constant S1024x1024 .f32 0x00000000#32) (ix2 p q)
      = ∑ k : Fin 256, x0 (ix2 p k) * x1 (ix2 q k) := by
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_0 _ _
    | ⟨1, _⟩ => exact (lhs_1 _ _).trans hk)
  rw [el]
  refine congrArg (x0 (ix2 p k) * ·) ?_
  refine transpose_apply [1, 0] x1 Facts₀.transposes_S1024x256_p1_0_S256x1024 _ (ix2 q k) (fun b => ?_)
  match b with
  | ⟨0, _⟩ => show k.val = _; exact ((rhs_0 _ _).trans hk).symm
  | ⟨1, _⟩ => show q.val = _; exact (rhs_1 (ix2 p q) _).symm

/-- A [1024, 1] column broadcast to [1024, 1024] reads its row's entry. -/
theorem column_broadcast (x2 : FVec Ideal S1024x1 .f32) (p q : Fin 1024) :
    broadcastTo S1024x1024 x2 Facts₀.broadcasts_S1024x1_S1024x1024 (ix2 p q) = x2 (ix2 p 0) :=
  broadcastTo_apply x2 Facts₀.broadcasts_S1024x1_S1024x1024 (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])

/-- A [1, 1024] row broadcast to [1024, 1024] reads its column's entry. -/
theorem row_broadcast (x3 : FVec Ideal S1x1024 .f32) (p q : Fin 1024) :
    broadcastTo S1024x1024 x3 Facts₀.broadcasts_S1x1024_S1024x1024 (ix2 p q) = x3 (ix2 0 q) :=
  broadcastTo_apply x3 Facts₀.broadcasts_S1x1024_S1024x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-! ## The stored value -/

/-- THE BODY'S STORE AT (p, q), from its four loaded blocks. -/
theorem pay_apply (x0 x1 : FVec Ideal S1024x256 .bf16) (x2 : FVec Ideal S1024x1 .f32) (x3 : FVec Ideal S1x1024 .f32) (p q : Fin 1024) :
    k0_pay1 (F := Ideal) x0 x1 x2 x3 (ix2 p q)
      = Ideal.exp (Ideal.ofBits .f32 0xBF000000#32
          * max ((x2 (ix2 p 0) + x3 (ix2 0 q)) - Ideal.ofBits .f32 0x40000000#32 * ∑ k : Fin 256, x0 (ix2 p k) * x1 (ix2 q k))
              (Ideal.ofBits .f32 0x00000000#32)) := by
  unfold k0_pay1
  simp only [shapeCast_self]
  show Ideal.exp (Ideal.ofBits .f32 0xBF000000#32
      * max ((broadcastTo S1024x1024 x2 Facts₀.broadcasts_S1024x1_S1024x1024 (ix2 p q) + broadcastTo S1024x1024 x3 Facts₀.broadcasts_S1x1024_S1024x1024 (ix2 p q))
          - Ideal.ofBits .f32 0x40000000#32 * FloatOps.matmul dot_S1024x256_S256x1024_S1024x1024_1_0_0_1_n_n none x0
              (transpose S256x1024 [1, 0] x1 Facts₀.transposes_S1024x256_p1_0_S256x1024) (constant S1024x1024 .f32 0x00000000#32) (ix2 p q))
          (Ideal.ofBits .f32 0x00000000#32)) = _
  rw [column_broadcast, row_broadcast, matmul_transposed]

/-- THE STORE AT (p, q) IS A MATRIX ENTRY: when row p of the first block is row P of a point set a, row q of the
    second block is row Q of a point set b, and the column and the row hold u_P and w_Q there, the body stores
    `Ard.entry a b u w P Q`. -/
theorem entry_of_blocks (a b : Pts) (u w : Fin 4096 → EReal) (P Q : Fin 4096)
    (x0 x1 : FVec Ideal S1024x256 .bf16) (x2 : FVec Ideal S1024x1 .f32) (x3 : FVec Ideal S1x1024 .f32) (p q : Fin 1024)
    (h0 : ∀ k : Fin 256, x0 (ix2 p k) = a (ix2 P k)) (h1 : ∀ k : Fin 256, x1 (ix2 q k) = b (ix2 Q k))
    (h2 : x2 (ix2 p 0) = u P) (h3 : x3 (ix2 0 q) = w Q) :
    k0_pay1 (F := Ideal) x0 x1 x2 x3 (ix2 p q) = entry a b u w P Q := by
  rw [pay_apply, h2, h3]
  unfold entry
  refine congrArg (fun z => Ideal.exp (negHalf * max ((u P + w Q) - two * z) zero)) (Finset.sum_congr rfl fun k _ => ?_)
  rw [h0 k, h1 k]

end Cert.KernelIdeal.BlockEntry

end
-- ==== Proof.HostArrays.lean ====
/-
  The four arrays the kernel region is launched on, on the extended reals.

  Before the region the program scales the columns of x and of y by exp(-1/2 · l_d), sums the squares of each row
  of either, lays the x-norms out as a [4096, 1] column and the y-norms (a column, transposed) as a [1, 4096] row,
  and narrows the two scaled arrays to bf16 — a change of format, the identity on extended reals. These are the
  reference's own first stages, operation for operation; so the narrowed arrays are `Ard.scaled` of x and of y and
  the column and the row hold `Ard.sqnorm` of their rows.
-/
import proofs.«175086_j82360292868538_1_alg».proof.Proof.Gen.KernelIdeal.Frame
import proofs.«175086_j82360292868538_1_alg».proof.Proof.RefGram
import Idealize.ShloMosaic.Lib.StableHlo.Run
import Idealize.ShloMosaic.Lib.Pipeline.Value

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx
open Cert.Ard

variable (m : (ℓ : Loc nD τ sig) → Buf (Elt Ideal) ℓ)

/-- The x-points as launched. -/
abbrev argX (c : Dev nD) : Pts := m ((c : Thread nD τ).loc main_arg0)
/-- The y-points as launched. -/
abbrev argY (c : Dev nD) : Pts := m ((c : Thread nD τ).loc main_arg1)
/-- The log band widths as launched. -/
abbrev argL (c : Dev nD) : Widths := m ((c : Thread nD τ).loc main_arg2)

/-- The first operand of the region: the scaled x-points. -/
theorem xw_array (c : Dev nD) : (V m c main_v16 : S4096x256.Idx → EReal) = scaled (argX m c) (argL m c) := by
  have e : (V m c main_v16 : S4096x256.Idx → EReal)
      = Cert.ReferenceIdeal.Read.val_main_v5 (F := Ideal) (argX m c) (argL m c) := by
    dsimp only [Gen.V, Gen.hostOps0]; after_results; rfl
  rw [e, Cert.ReferenceIdeal.RefGram.scaled_x]

/-- The second operand: the scaled y-points. -/
theorem yw_array (c : Dev nD) : (V m c main_v17 : S4096x256.Idx → EReal) = scaled (argY m c) (argL m c) := by
  have e : (V m c main_v17 : S4096x256.Idx → EReal)
      = Cert.ReferenceIdeal.Read.val_main_v8 (F := Ideal) (argY m c) (argL m c) := by
    dsimp only [Gen.V, Gen.hostOps0]; after_results; rfl
  rw [e, Cert.ReferenceIdeal.RefGram.scaled_y]

/-- The third operand, a [4096, 1] column: entry (p, 0) is the squared norm of row p of the scaled x-points. -/
theorem xnorm_array (c : Dev nD) (p : Fin 4096) :
    (V m c main_v11 : S4096x1.Idx → EReal) (ix2 p 0) = sqnorm (scaled (argX m c) (argL m c)) p := by
  have e : (V m c main_v11 : S4096x1.Idx → EReal)
      = Cert.ReferenceIdeal.Read.val_main_v15 (F := Ideal) (argX m c) (argL m c) := by
    dsimp only [Gen.V, Gen.hostOps0]; after_results; rfl
  have hi : Cert.ReferenceIdeal.Read.idx_main_v15 (ix2 p 0) = ix1 p :=
    funext fun a => Fin.ext (by match a with | ⟨0, _⟩ => rfl)
  rw [e, Cert.ReferenceIdeal.Read.val_main_v15_apply, hi, Cert.ReferenceIdeal.RefGram.sqnorm_x]

/-- The fourth operand, a [1, 4096] row: entry (0, q) is the squared norm of row q of the scaled y-points (the
    column of norms, transposed). -/
theorem ynorm_array (c : Dev nD) (q : Fin 4096) :
    (V m c main_v15 : S1x4096.Idx → EReal) (ix2 0 q) = sqnorm (scaled (argY m c) (argL m c)) q := by
  have e : (V m c main_v15 : S1x4096.Idx → EReal)
      = transpose S1x4096 [1, 0] (broadcastInDim S4096x1 ![0] Facts₀.bcast_S4096_S4096x1_0
          (Cert.ReferenceIdeal.Read.val_main_v12 (F := Ideal) (argY m c) (argL m c))) Facts₀.transposes_S4096x1_S1x4096_1_0 := by
    dsimp only [Gen.V, Gen.hostOps0]; after_results; rfl
  rw [e, transpose_apply [1, 0] _ Facts₀.transposes_S4096x1_S1x4096_1_0 (ix2 0 q) (ix2 q 0) (fun b => by
      match b with
      | ⟨0, _⟩ => rfl
      | ⟨1, _⟩ => rfl),
    broadcastInDim_apply _ Facts₀.bcast_S4096_S4096x1_0 _ (ix2 q 0) (ix1 q) (fun a => by
      match a with
      | ⟨0, _⟩ => show q.val = if (4096 : Nat) = 1 then 0 else q.val; rw [if_neg (by decide)]),
    Cert.ReferenceIdeal.RefGram.sqnorm_y]

end Cert.KernelIdeal.HostArrays

end
-- ==== Proof.KernelGram.lean ====
/-
  The kernel's result array is the ARD kernel matrix `Ard.gram` of the arguments.

  The grid has 4 × 4 points; point (i, j) is given rows 1024·i … 1024·i + 1023 of the scaled x-points and of the
  column of x-norms, rows 1024·j … 1024·j + 1023 of the scaled y-points and the matching stretch of the row of
  y-norms, and writes back the [1024, 1024] block (i, j) of the result. Inside the block, place (p, q) holds
  exp(-1/2 · max((|xw_P|² + |yw_Q|²) - 2 · ⟨xw_P, yw_Q⟩, 0)) with P = 1024·i + p and Q = 1024·j + q: the entry (P, Q)
  of the matrix. The sixteen blocks tile the [4096, 4096] array, so after the run the array is the matrix.
-/
import proofs.«175086_j82360292868538_1_alg».proof.Proof.Gen.KernelIdeal.Value
import proofs.«175086_j82360292868538_1_alg».proof.Proof.BlockEntry
import proofs.«175086_j82360292868538_1_alg».proof.Proof.HostArrays

set_option maxRecDepth 16384

noncomputable section

namespace Cert.KernelIdeal.KernelGram

open Cert.KernelIdeal Cert.KernelIdeal.Gen Idealize.ShloMosaic Idealize.ShloMosaic.TcCoe Idealize.SL.Sem
open Idealize.ShloMosaic.ValueIdx
open Idealize.ShloMosaic.Pipeline (Dat)
open Cert.Ard Cert.KernelIdeal.HostArrays

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at a grid point, decided over the sixteen points: the x-blocks and the column of x-norms move
    with the output block's row index, the y-blocks and the row of y-norms with its column index, and both output
    indices stay below 4. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every one of the 4 × 4 output blocks is some point's. -/
theorem idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-! ## The input blocks at a point, read off the launched arrays -/

/-- The block of scaled x-points point `t` is given. -/
abbrev xblk (c : Dev nD) (t : Fin cfg0.N) : FVec Ideal S1024x256 .bf16 := iblk m c 0 t
/-- Its block of scaled y-points. -/
abbrev yblk (c : Dev nD) (t : Fin cfg0.N) : FVec Ideal S1024x256 .bf16 := iblk m c 1 t
/-- Its block of the column of x-norms. -/
abbrev xnblk (c : Dev nD) (t : Fin cfg0.N) : FVec Ideal S1024x1 .f32 := iblk m c 2 t
/-- Its block of the row of y-norms. -/
abbrev ynblk (c : Dev nD) (t : Fin cfg0.N) : FVec Ideal S1x1024 .f32 := iblk m c 3 t

/-- Place (p, k) of the x-block at a point is entry (P, k) of the scaled x-points, P the row the block's place p
    sits on. -/
theorem xblock_apply (c : Dev nD) (t : Fin cfg0.N) (p : Fin 1024) (k : Fin 256) (P : Fin 4096)
    (hP : P.val = win0_4.index t (0 : Fin 2) * 1024 + p.val) :
    xblk m c t (ix2 p k) = scaled (argX m c) (argL m c) (ix2 P k) := by
  have h : xblk m c t (ix2 p k) = (V m c main_v16 : S4096x256.Idx → EReal) (ix2 P k) := by
    show V m c main_v16 (((cfg0.win 0).blk t).view.emb (ix2 p k)) = V m c main_v16 (ix2 P k)
    refine congrArg _ (funext fun a => Fin.ext ?_)
    obtain ⟨e0, e1, -⟩ := idx_facts t
    match a with
    | ⟨0, _⟩ => show win0_0.index t (0 : Fin 2) * 1024 + 1 * p.val = P.val; omega
    | ⟨1, _⟩ => show win0_0.index t (1 : Fin 2) * 256 + 1 * k.val = k.val; omega
  rw [h, xw_array]

/-- Place (q, k) of the y-block at a point is entry (Q, k) of the scaled y-points. -/
theorem yblock_apply (c : Dev nD) (t : Fin cfg0.N) (q : Fin 1024) (k : Fin 256) (Q : Fin 4096)
    (hQ : Q.val = win0_4.index t (1 : Fin 2) * 1024 + q.val) :
    yblk m c t (ix2 q k) = scaled (argY m c) (argL m c) (ix2 Q k) := by
  have h : yblk m c t (ix2 q k) = (V m c main_v17 : S4096x256.Idx → EReal) (ix2 Q k) := by
    show V m c main_v17 (((cfg0.win 1).blk t).view.emb (ix2 q k)) = V m c main_v17 (ix2 Q k)
    refine congrArg _ (funext fun a => Fin.ext ?_)
    obtain ⟨-, -, e2, e3, -⟩ := idx_facts t
    match a with
    | ⟨0, _⟩ => show win0_1.index t (0 : Fin 2) * 1024 + 1 * q.val = Q.val; omega
    | ⟨1, _⟩ => show win0_1.index t (1 : Fin 2) * 256 + 1 * k.val = k.val; omega
  rw [h, yw_array]

/-- Place (p, 0) of the block of the column of x-norms is the squared norm of row P. -/
theorem xnorm_block_apply (c : Dev nD) (t : Fin cfg0.N) (p : Fin 1024) (P : Fin 4096)
    (hP : P.val = win0_4.index t (0 : Fin 2) * 1024 + p.val) :
    xnblk m c t (ix2 p 0) = sqnorm (scaled (argX m c) (argL m c)) P := by
  have h : xnblk m c t (ix2 p 0) = (V m c main_v11 : S4096x1.Idx → EReal) (ix2 P 0) := by
    show V m c main_v11 (((cfg0.win 2).blk t).view.emb (ix2 p 0)) = V m c main_v11 (ix2 P 0)
    refine congrArg _ (funext fun a => Fin.ext ?_)
    obtain ⟨-, -, -, -, e4, e5, -⟩ := idx_facts t
    match a with
    | ⟨0, _⟩ => show win0_2.index t (0 : Fin 2) * 1024 + 1 * p.val = P.val; omega
    | ⟨1, _⟩ => show win0_2.index t (1 : Fin 2) * 1 + 1 * 0 = 0; omega
  rw [h, xnorm_array]

/-- Place (0, q) of the block of the row of y-norms is the squared norm of row Q. -/
theorem ynorm_block_apply (c : Dev nD) (t : Fin cfg0.N) (q : Fin 1024) (Q : Fin 4096)
    (hQ : Q.val = win0_4.index t (1 : Fin 2) * 1024 + q.val) :
    ynblk m c t (ix2 0 q) = sqnorm (scaled (argY m c) (argL m c)) Q := by
  have h : ynblk m c t (ix2 0 q) = (V m c main_v15 : S1x4096.Idx → EReal) (ix2 0 Q) := by
    show V m c main_v15 (((cfg0.win 3).blk t).view.emb (ix2 0 q)) = V m c main_v15 (ix2 0 Q)
    refine congrArg _ (funext fun a => Fin.ext ?_)
    obtain ⟨-, -, -, -, -, -, e6, e7, -⟩ := idx_facts t
    match a with
    | ⟨0, _⟩ => show win0_3.index t (0 : Fin 2) * 1 + 1 * 0 = 0; omega
    | ⟨1, _⟩ => show win0_3.index t (1 : Fin 2) * 1024 + 1 * q.val = Q.val; omega
  rw [h, ynorm_array]

/-! ## What a point writes back -/

/-- WHAT POINT `t` WRITES BACK is block `t` of the ARD kernel matrix of the arguments. -/
theorem flushed_eq (c : Dev nD) (t : Fin cfg0.N) :
    (dats m 0 c).flushed 4 t
      = ((cfg0.win 4).blk t).view.read (Elt Ideal) (gram (argX m c) (argY m c) (argL m c)) := by
  rw [Value.flushed4]
  unfold out0_4
  rw [View.canon_unit_zero zero_offsets]
  simp only [View.ld_unit_zero (S := S1024x256) zero_offsets, View.ld_unit_zero (S := S1024x1) zero_offsets,
    View.ld_unit_zero (S := S1x1024) zero_offsets]
  obtain ⟨-, -, -, -, -, -, -, -, e8, e9⟩ := idx_facts t
  funext j
  obtain ⟨p, q, rfl⟩ : ∃ (p q : Fin 1024), j = ix2 p q := ⟨j 0, j 1, eq_ix2 j⟩
  have hp : p.val < 1024 := p.isLt
  have hq : q.val < 1024 := q.isLt
  obtain ⟨P, hP⟩ : ∃ P : Fin 4096, P.val = win0_4.index t (0 : Fin 2) * 1024 + p.val := ⟨⟨_, by omega⟩, rfl⟩
  obtain ⟨Q, hQ⟩ : ∃ Q : Fin 4096, Q.val = win0_4.index t (1 : Fin 2) * 1024 + q.val := ⟨⟨_, by omega⟩, rfl⟩
  have hemb : ((cfg0.win 4).blk t).view.emb (ix2 p q) = ix2 P Q :=
    funext fun a => Fin.ext (by
      match a with
      | ⟨0, _⟩ => show win0_4.index t (0 : Fin 2) * 1024 + 1 * p.val = P.val; omega
      | ⟨1, _⟩ => show win0_4.index t (1 : Fin 2) * 1024 + 1 * q.val = Q.val; omega)
  show k0_pay1 (F := Ideal) (xblk m c t) (yblk m c t) (xnblk m c t) (ynblk m c t) (ix2 p q)
    = gram (argX m c) (argY m c) (argL m c) (((cfg0.win 4).blk t).view.emb (ix2 p q))
  rw [hemb, gram_ix2]
  exact BlockEntry.entry_of_blocks (scaled (argX m c) (argL m c)) (scaled (argY m c) (argL m c))
    (sqnorm (scaled (argX m c) (argL m c))) (sqnorm (scaled (argY m c) (argL m c))) P Q
    (xblk m c t) (yblk m c t) (xnblk m c t) (ynblk m c t) p q
    (fun k => xblock_apply m c t p k P hP) (fun k => yblock_apply m c t q k Q hQ)
    (xnorm_block_apply m c t p P hP) (ynorm_block_apply m c t q Q hQ)

/-! ## The blocks tile the array -/

/-- An index of the array is in point `t`'s block iff each coordinate is in the block's range on its axis. -/
theorem mem_blk (t : Fin cfg0.N) (i : S4096x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v18).slice (win0_4.rect t)).set ↔ _
  rw [View.set_slice_whole, Rect.mem_set_unit]
  exact Iff.rfl

/-- Every entry (P, Q) of the array lies in the block of the point with block indices (P / 1024, Q / 1024). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The array after the run, and the run -/

/-- THE RESULT ARRAY after the run is the ARD kernel matrix of the arguments as launched. -/
theorem final (c : Dev nD) : (dats m 0 c).arrAt 4 cfg0.N = gram (argX m c) (argY m c) (argL m c) :=
  (dats m 0 c).arrAt_eq_of_cover 4 (gram (argX m c) (argY m c) (argL m c)) (fun t _ => flushed_eq m c t) cover

/-- The kernel's run: every weakly fair execution ends with the result array at the ARD kernel matrix of the
    arguments, and the arguments unchanged. -/
theorem run : θ_run defs (onTc (τ := τ) (main (F := Ideal))) ⟨m, fun _ => 0, ρ⟩ fun r => ∀ c : Dev nD,
      r.2.mem ((c : Thread nD τ).loc main_v18) = gram (argX m c) (argY m c) (argL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelGram

end
-- ==== Proof.lean ====
/-
  The ARD kernel matrix K[i, j] = exp(-1/2 · Σ_d (x[i, d] - y[j, d])² / bw_d), bw_d = exp(l_d), computed by the
  quadratic expansion: with xw = x · exp(-l/2) and yw = y · exp(-l/2) column by column,
    K[i, j] = exp(-1/2 · max((|xw_i|² + |yw_j|²) - 2 · ⟨xw_i, yw_j⟩, 0)).
  The kernel program prepares xw, yw (narrowed to bf16, the identity on extended reals) and the two vectors of
  squared norms on the host, and a 4 × 4 grid of [1024, 1024] blocks computes the cross term on the matrix unit
  and finishes each block pointwise; the reference computes the same expression whole on the host. On the extended
  reals the two run the same operations on the same operands in the same order, so the two results are one
  function of the arguments, `Ard.gram` (Proof/ArdSpec.lean), entry by entry — no algebraic law joins them and the
  inputs' finiteness is never used:
  - the reference's result is `Ard.gram` (Proof/RefGram.lean);
  - the arrays the region is launched on are the reference's first stages (Proof/HostArrays.lean), the body's
    stored value at a place of its block is the matrix entry there (Proof/BlockEntry.lean), and the sixteen blocks
    tile the result array (Proof/KernelGram.lean).
  The idealization rewrote nothing, so `preserves` is trivial; the kernel's two frames are the generated ones and
  the reference's frame is its run with the result dropped.
-/
import proofs.«175086_j82360292868538_1_alg».proof.Defs
import proofs.«175086_j82360292868538_1_alg».proof.Proof.Gen.Kernel
import proofs.«175086_j82360292868538_1_alg».proof.Proof.Gen.Kernel.Skeleton
import proofs.«175086_j82360292868538_1_alg».proof.Proof.Gen.Kernel.Launch
import proofs.«175086_j82360292868538_1_alg».proof.Proof.Gen.Kernel.Points
import proofs.«175086_j82360292868538_1_alg».proof.Proof.Gen.Kernel.Frame
import proofs.«175086_j82360292868538_1_alg».proof.Proof.Gen.KernelIdeal
import proofs.«175086_j82360292868538_1_alg».proof.Proof.Gen.KernelIdeal.Skeleton
import proofs.«175086_j82360292868538_1_alg».proof.Proof.Gen.KernelIdeal.Launch
import proofs.«175086_j82360292868538_1_alg».proof.Proof.Gen.KernelIdeal.Points
import proofs.«175086_j82360292868538_1_alg».proof.Proof.Gen.KernelIdeal.Frame
import proofs.«175086_j82360292868538_1_alg».proof.Proof.Gen.ReferenceIdeal
import proofs.«175086_j82360292868538_1_alg».proof.Proof.Gen.Pre_finite_inputs
import proofs.«175086_j82360292868538_1_alg».proof.Proof.Gen.KernelIdeal.Value
import proofs.«175086_j82360292868538_1_alg».proof.Proof.Gen.ReferenceIdeal.Run
import proofs.«175086_j82360292868538_1_alg».proof.Proof.Gen.ReferenceIdeal.Read
import proofs.«175086_j82360292868538_1_alg».proof.Proof.RefGram
import proofs.«175086_j82360292868538_1_alg».proof.Proof.KernelGram
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, y and l both programs end with the ARD kernel matrix of x, y, l in their result
    array: the kernel block by block, the reference whole. -/
theorem algebraic : Cert.algebraic_KernelIdeal_ReferenceIdeal := by
  intro m ρ m' ρ' _ hagree
  refine ⟨_, Cert.KernelIdeal.KernelGram.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v27_eq _ _ _).trans (Cert.ReferenceIdeal.RefGram.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
